-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x256 : Shape := ⟨2, ![512, 256]⟩
abbrev S256 : Shape := ⟨1, ![256]⟩
abbrev S256x32 : Shape := ⟨2, ![256, 32]⟩
abbrev S32 : Shape := ⟨1, ![32]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S256x32 .f32) (main_arg5 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x32 .f32 := Host.absf main_arg4
  let main_cst_6 : FVec F S_ .f32 := constant S_ .f32 0x7F800000#32
  let main_v20 : FVec F S256x32 .f32 := broadcastInDim S256x32 ![] bcast_S_S256x32 main_cst_6
  let main_v21 : IVec S256x32 1 := cmpf .olt main_v19 main_v20
  let main_c_7 : IVec S_ 1 := constantI S_ 1 1#1
  let main_v22 : IVec S_ 1 := (fun x v => Host.reduce IntOp.andi x v reducesTo_S256x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x512 .f32) (main_arg1 : FVec F S1600000 .f32) (main_arg2 : FVec F S512x256 .f32) (main_arg3 : FVec F S256 .f32) (main_arg4 : FVec F S256x32 .f32) (main_arg5 : FVec F S32 .f32) (main_arg6 : IVec S1600000 32) (main_arg7 : IVec S1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S100000x512 : Shape := ⟨2, ![100000, 512]⟩
abbrev S1600000 : Shape := ⟨1, ![1600000]⟩
abbrev S512x256 : Shape := ⟨2, ![512, 256]⟩
abbrev S256 : Shape := ⟨1, ![256]⟩
abbrev S256x32 : Shape := ⟨2, ![256, 32]⟩
abbrev S32 : Shape := ⟨1, ![32]⟩
abbrev S100000x32 : Shape := ⟨2, ![100000, 32]⟩
abbrev S4000x512 : Shape := ⟨2, ![4000, 512]⟩
abbrev S4000x32 : Shape := ⟨2, ![4000, 32]⟩
abbrev S4000x256 : Shape := ⟨2, ![4000, 256]⟩
abbrev S1x256 : Shape := ⟨2, ![1, 256]⟩
abbrev S1x32 : Shape := ⟨2, ![1, 32]⟩
abbrev S1600000x1 : Shape := ⟨2, ![1600000, 1]⟩
abbrev S_ : Shape := ⟨0, ![]⟩
abbrev S1600000x32 : Shape := ⟨2, ![1600000, 32]⟩

abbrev nBuf : Space → Nat
  | .hbm => 25
  | .vmem => 8
  | .smem => 0
  | _ => 0

abbrev bufTy : (tb : Table) → Fin (tcTables nBuf tb) → BufTy
  | .hbm, ⟨0, _⟩ => ⟨S100000x512, .f32⟩
  | .hbm, ⟨1, _⟩ => ⟨S1600000, .f32⟩
  | .hbm, ⟨2, _⟩ => ⟨S512x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S1600000, .i32⟩
  | .hbm, ⟨7, _⟩ => ⟨S1600000, .i32⟩
  | .hbm, ⟨8, _⟩ => ⟨S100000x32, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x32, .f32⟩
  | .hbm, ⟨19, _⟩ => ⟨S1600000x32, .f32⟩
  | .hbm, ⟨20, _⟩ => ⟨S1600000x32, .f32⟩
  | .hbm, ⟨21, _⟩ => ⟨S_, .f32⟩
  | .hbm, ⟨22, _⟩ => ⟨S100000x32, .f32⟩
  | .hbm, ⟨23, _⟩ => ⟨S1600000x1, .i32⟩
  | .hbm, ⟨24, _⟩ => ⟨S100000x32, .f32⟩
  | .local _ .vmem, ⟨0, _⟩ => ⟨S4000x512, .f32⟩
  | .local _ .vmem, ⟨1, _⟩ => ⟨S4000x512, .f32⟩
  | .local _ .vmem, ⟨2, _⟩ => ⟨S512x256, .f32⟩
  | .local _ .vmem, ⟨3, _⟩ => ⟨S256, .f32⟩
  | .local _ .vmem, ⟨4, _⟩ => ⟨S256x32, .f32⟩
  | .local _ .vmem, ⟨5, _⟩ => ⟨S32, .f32⟩
  | .local _ .vmem, ⟨6, _⟩ => ⟨S4000x32, .f32⟩
  | .local _ .vmem, ⟨7, _⟩ => ⟨S4000x32, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S256x32_S256x32_0_0 : ∀ a, (![0, 0] : Fin 2 → Nat) a + S256x32.size a ≤ S256x32.size a
  h_S256x32 : 0 < S256x32.numel
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S4000x512_S512x256_S4000x256_1_0_0_1_n_n_wf : DotDims.WF S4000x512 S512x256 S4000x256 [1] [0] [0] [1] [] []
  dot_S4000x256_S256x32_S4000x32_1_0_0_1_n_n_wf : DotDims.WF S4000x256 S256x32 S4000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x32.size a ≤ S100000x32.size a
  hwx0_5 : ∀ i : grid0.Coords, EltTy.bits .f32 = 32 ∨ (Rect.block (s := S100000x32) S4000x32.size (cc0_transform_5 i) (hinb0_5 i)).WholeWords (EltTy.packing .f32)

variable [Facts₀]

def dot_S4000x512_S512x256_S4000x256_1_0_0_1_n_n : DotDims S4000x512 S512x256 S4000x256 where
  lhsContracting := [1]
  rhsContracting := [0]
  lhsNonContracting := [0]
  rhsNonContracting := [1]
  lhsBatch := []
  rhsBatch := []
  wf := dot_S4000x512_S512x256_S4000x256_1_0_0_1_n_n_wf
def dot_S4000x256_S256x32_S4000x32_1_0_0_1_n_n : DotDims S4000x256 S256x32 S4000x32 where
  lhsContracting := [1]
  rhsContracting := [0]
  lhsNonContracting := [0]
  rhsNonContracting := [1]
  lhsBatch := []
  rhsBatch := []
  wf := dot_S4000x256_S256x32_S4000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x256 : Shape := ⟨2, ![512, 256]⟩
abbrev S256 : Shape := ⟨1, ![256]⟩
abbrev S256x32 : Shape := ⟨2, ![256, 32]⟩
abbrev S32 : Shape := ⟨1, ![32]⟩
abbrev S100000x256 : Shape := ⟨2, ![100000, 256]⟩
abbrev S1x256 : Shape := ⟨2, ![1, 256]⟩
abbrev S_ : Shape := ⟨0, ![]⟩
abbrev S100000x32 : Shape := ⟨2, ![100000, 32]⟩
abbrev S1x32 : Shape := ⟨2, ![1, 32]⟩
abbrev S1600000x1 : Shape := ⟨2, ![1600000, 1]⟩
abbrev S1600000x32 : Shape := ⟨2, ![1600000, 32]⟩

abbrev nBuf : Space → Nat
  | .hbm => 35
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .f32⟩
  | .hbm, ⟨2, _⟩ => ⟨S512x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S1600000, .i32⟩
  | .hbm, ⟨7, _⟩ => ⟨S1600000, .i32⟩
  | .hbm, ⟨8, _⟩ => ⟨S100000x256, .f32⟩
  | .hbm, ⟨9, _⟩ => ⟨S1x256, .f32⟩
  | .hbm, ⟨10, _⟩ => ⟨S100000x256, .f32⟩
  | .hbm, ⟨11, _⟩ => ⟨S100000x256, .f32⟩
  | .hbm, ⟨12, _⟩ => ⟨S_, .f32⟩
  | .hbm, ⟨13, _⟩ => ⟨S100000x256, .f32⟩
  | .hbm, ⟨14, _⟩ => ⟨S100000x256, .f32⟩
  | .hbm, ⟨15, _⟩ => ⟨S100000x32, .f32⟩
  | .hbm, ⟨16, _⟩ => ⟨S1x32, .f32⟩
  | .hbm, ⟨17, _⟩ => ⟨S100000x32, .f32⟩
  | .hbm, ⟨18, _⟩ => ⟨S100000x32, .f32⟩
  | .hbm, ⟨19, _⟩ => ⟨S1600000x1, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x32, .f32⟩
  | .hbm, ⟨29, _⟩ => ⟨S1600000x32, .f32⟩
  | .hbm, ⟨30, _⟩ => ⟨S1600000x32, .f32⟩
  | .hbm, ⟨31, _⟩ => ⟨S_, .f32⟩
  | .hbm, ⟨32, _⟩ => ⟨S100000x32, .f32⟩
  | .hbm, ⟨33, _⟩ => ⟨S1600000x1, .i32⟩
  | .hbm, ⟨34, _⟩ => ⟨S100000x32, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S100000x512_S512x256_S100000x256_1_0_0_1_n_n_wf : DotDims.WF S100000x512 S512x256 S100000x256 [1] [0] [0] [1] [] []
  dot_S100000x256_S256x32_S100000x32_1_0_0_1_n_n_wf : DotDims.WF S100000x256 S256x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.Mlp.lean ====
/-
  The function both programs compute before the sparse product: a two-layer perceptron applied row by row.
  For a feature matrix `x` with `n` rows of 512 entries, weights `w1` (512 × 256), `w2` (256 × 32) and biases
  `b1`, `b2`, the entry at row `p`, column `q` is

      (Σ k < 256, max (Σ l < 512, x[p,l] · w1[l,k] + b1[k]) 0 · w2[k,q]) + b2[q]

  on the extended reals. It is stated for any number of rows, because an entry depends on ONE row of `x` only:
  the perceptron of a block of rows is the same block of the perceptron of the whole matrix (`mlp_rows`). That is
  the whole relation between a kernel that walks the matrix 4000 rows at a time and a reference that multiplies
  it at once.
-/
import Idealize.ShloMosaic.PureOps.Ideal
import Idealize.ShloMosaic.Lib.ValueIdx

noncomputable section

open scoped BigOperators

namespace Cert.Spec

open Idealize.ShloMosaic Idealize.ShloMosaic.ValueIdx

/-- The hidden layer at row `p`, unit `k`: the rectified affine image of row `p`. -/
def hiddenAt {n : Nat} (x : (⟨2, ![n, 512]⟩ : Shape).Idx → EReal) (w1 : (⟨2, ![512, 256]⟩ : Shape).Idx → EReal)
    (b1 : (⟨1, ![256]⟩ : Shape).Idx → EReal) (p : Fin n) (k : Fin 256) : EReal :=
  max ((∑ l : Fin 512, x (ix2 p l) * w1 (ix2 l k)) + b1 (ix1 k)) 0

/-- The perceptron's output at row `p`, column `q`. -/
def mlpAt {n : Nat} (x : (⟨2, ![n, 512]⟩ : Shape).Idx → EReal) (w1 : (⟨2, ![512, 256]⟩ : Shape).Idx → EReal)
    (b1 : (⟨1, ![256]⟩ : Shape).Idx → EReal) (w2 : (⟨2, ![256, 32]⟩ : Shape).Idx → EReal)
    (b2 : (⟨1, ![32]⟩ : Shape).Idx → EReal) (p : Fin n) (q : Fin 32) : EReal :=
  (∑ k : Fin 256, hiddenAt x w1 b1 p k * w2 (ix2 k q)) + b2 (ix1 q)

/-- The perceptron of a matrix of `n` rows, as an `n × 32` array. -/
def mlp {n : Nat} (x : (⟨2, ![n, 512]⟩ : Shape).Idx → EReal) (w1 : (⟨2, ![512, 256]⟩ : Shape).Idx → EReal)
    (b1 : (⟨1, ![256]⟩ : Shape).Idx → EReal) (w2 : (⟨2, ![256, 32]⟩ : Shape).Idx → EReal)
    (b2 : (⟨1, ![32]⟩ : Shape).Idx → EReal) : (⟨2, ![n, 32]⟩ : Shape).Idx → EReal :=
  fun i => mlpAt x w1 b1 w2 b2 (i 0) (i 1)

/-- An entry depends on its own row only: if row `p` of `x` is row `p'` of `x'`, the two perceptrons agree there,
    column for column. -/
theorem mlpAt_rows {n n' : Nat} (x : (⟨2, ![n, 512]⟩ : Shape).Idx → EReal) (x' : (⟨2, ![n', 512]⟩ : Shape).Idx → EReal)
    (w1 : (⟨2, ![512, 256]⟩ : Shape).Idx → EReal) (b1 : (⟨1, ![256]⟩ : Shape).Idx → EReal)
    (w2 : (⟨2, ![256, 32]⟩ : Shape).Idx → EReal) (b2 : (⟨1, ![32]⟩ : Shape).Idx → EReal)
    (p : Fin n) (p' : Fin n') (q q' : Fin 32) (hcol : q = q') (hrow : ∀ l : Fin 512, x (ix2 p l) = x' (ix2 p' l)) :
    mlpAt x w1 b1 w2 b2 p q = mlpAt x' w1 b1 w2 b2 p' q' := by
  subst hcol
  unfold mlpAt hiddenAt
  simp only [hrow]

end Cert.Spec

end
-- ==== Proof.RefMlp.lean ====
/-
  The reference's dense part, read index by index, is the perceptron of the whole feature matrix: its two
  `dot_general`s are the two sums, its two bias broadcasts read the bias at the column, and its `relu` is the
  maximum with the zero constant. What follows it — gather the rows named by the edge columns, scale each by
  its edge weight, add into the rows named by the edge rows — is the same chain of operations in both programs,
  so it is carried as ONE function `spmm` of the dense result and never opened.
-/
import proofs.«122920_j10557029614175_1_alg».proof.Proof.Gen.ReferenceIdeal.Read
import proofs.«122920_j10557029614175_1_alg».proof.Proof.Mlp

noncomputable section

open scoped BigOperators

namespace Cert.ReferenceIdeal.RefValue

open Cert.ReferenceIdeal Cert.ReferenceIdeal.Read Cert.Spec Idealize.ShloMosaic Idealize.ShloMosaic.ValueIdx

/-! ### The composed index maps of the reference's operations, as coordinates -/

theorem lhs_row (i : S100000x32.Idx) (k : Fin 256) (l : Fin 512) :
    lidx_main_v0 (lidx_main_v5 i k) l = ix2 (n0 := 100000) (i 0) l :=
  funext fun a => Fin.ext (by match a with | ⟨0, _⟩ => rfl | ⟨1, _⟩ => rfl)

theorem rhs_col (i : S100000x32.Idx) (k : Fin 256) (l : Fin 512) :
    ridx_main_v0 (lidx_main_v5 i k) l = ix2 l k :=
  funext fun a => Fin.ext (by match a with | ⟨0, _⟩ => rfl | ⟨1, _⟩ => rfl)

theorem bias1_at (i : S100000x32.Idx) (k : Fin 256) :
    idx_main_v1 (idx_main_v2 (lidx_main_v5 i k)) = ix1 k :=
  funext fun a => Fin.ext (by match a with | ⟨0, _⟩ => rfl)

theorem w2_at (i : S100000x32.Idx) (k : Fin 256) : ridx_main_v5 i k = ix2 (n1 := 32) k (i 1) :=
  funext fun a => Fin.ext (by match a with | ⟨0, _⟩ => rfl | ⟨1, _⟩ => rfl)

theorem bias2_at (i : S100000x32.Idx) : idx_main_v6 (idx_main_v7 i) = ix1 (n := 32) (i 1) :=
  funext fun a => Fin.ext (by match a with | ⟨0, _⟩ => rfl)

/-- The operand of the reference's gather — features · W1 + b1, rectified, · W2 + b2 — is the perceptron of the
    whole feature matrix. -/
theorem dense_eq_mlp (x0 : (⟨S100000x512, .f32⟩ : BufTy).Contents (Elt Ideal)) (x2 : (⟨S512x256, .f32⟩ : BufTy).Contents (Elt Ideal))
    (x3 : (⟨S256, .f32⟩ : BufTy).Contents (Elt Ideal)) (x4 : (⟨S256x32, .f32⟩ : BufTy).Contents (Elt Ideal))
    (x5 : (⟨S32, .f32⟩ : BufTy).Contents (Elt Ideal)) :
    val_main_v8 (F := Ideal) x0 x2 x3 x4 x5 = mlp (n := 100000) x0 x2 x3 x4 x5 := by
  funext i
  rw [val_main_v8_apply, val_main_v5_apply, val_main_v7_apply, val_main_v6_apply]
  simp only [val_main_v4_apply, val_main_v3_apply, val_main_v0_apply, val_main_v2_apply, val_main_v1_apply,
    val_main_call0_v0_apply, val_main_call0_cst_apply, lhs_row, rhs_col, bias1_at, w2_at, bias2_at,
    Ideal.addf_def, Ideal.maximumf_def, Ideal.ofBits_def, Ideal.ofBits_zero_f32]
  rfl

/-- The sparse product both programs end with, as a function of the dense array `X`, the edge weights `a` and the
    edge rows and columns: gather the rows of `X` at the edge columns (a negative column first wrapped by the row
    count), scale row `e` by `a[e]`, and add the scaled rows into a zero array at the edge rows. Both programs apply
    these same operations to their dense results, so whatever the gather and the scatter do with an index outside
    its range they do alike on both sides: the function is carried whole and never opened. -/
def spmm (X : FVec Ideal S100000x32 .f32) (a : FVec Ideal S1600000 .f32) (row col : IVec S1600000 32) :
    FVec Ideal S100000x32 .f32 :=
  Host.scatterAdd (F := Ideal) scatter_S100000x32_S1600000x1_S1600000x32_1_0_0_1 (val_main_v19 (F := Ideal))
    (val_main_v20 (F := Ideal) row)
    (mulf (F := Ideal) (val_main_v17 (F := Ideal) a)
      (Host.gather gather_S100000x32_S1600000x1_S1600000x32_1_0_n_n_0_1_132 X (val_main_v15 (F := Ideal) col)))

/-- The reference's result is the sparse product of the perceptron of the feature matrix. -/
theorem result_eq (x0 : (⟨S100000x512, .f32⟩ : BufTy).Contents (Elt Ideal)) (x1 : (⟨S1600000, .f32⟩ : BufTy).Contents (Elt Ideal))
    (x2 : (⟨S512x256, .f32⟩ : BufTy).Contents (Elt Ideal)) (x3 : (⟨S256, .f32⟩ : BufTy).Contents (Elt Ideal))
    (x4 : (⟨S256x32, .f32⟩ : BufTy).Contents (Elt Ideal)) (x5 : (⟨S32, .f32⟩ : BufTy).Contents (Elt Ideal))
    (x6 x7 : (⟨S1600000, .i32⟩ : BufTy).Contents (Elt Ideal)) :
    val_main_v21 (F := Ideal) x0 x1 x2 x3 x4 x5 x6 x7 = spmm (mlp (n := 100000) x0 x2 x3 x4 x5) x1 x6 x7 := by
  unfold val_main_v21 val_main_v18 val_main_v16 spmm
  rw [dense_eq_mlp]

end Cert.ReferenceIdeal.RefValue

end
-- ==== Proof.KernelPay.lean ====
/-
  What the kernel's body stores for one block of 4000 rows, read index by index: the perceptron of that block.
  Its two `tpu.matmul`s accumulate into a zero splat, so each is the plain sum over the contracted axis; the
  bf16 casts around them are the identity on extended reals; each bias, a vector recast as one row and broadcast
  down the rows, is read at the column; the rectifier is the maximum with the zero splat.
-/
import proofs.«122920_j10557029614175_1_alg».proof.Proof.Gen.KernelIdeal.Skeleton
import proofs.«122920_j10557029614175_1_alg».proof.Proof.Mlp
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BodyValue

open Cert.KernelIdeal Cert.KernelIdeal.Gen Cert.Spec Idealize.ShloMosaic Idealize.ShloMosaic.ValueIdx

/-! ### The operand indices of the two products, axis by axis -/

theorem lhsA_0 (i : S4000x256.Idx) (q : dot_S4000x512_S512x256_S4000x256_1_0_0_1_n_n.contr.Idx) :
    (dot_S4000x512_S512x256_S4000x256_1_0_0_1_n_n.lhsIdx i q 0).val = (i 0).val := by
  unfold DotDims.lhsIdx
  rw [dif_neg (show ¬(0 : Fin S4000x512.rank) ∈ dot_S4000x512_S512x256_S4000x256_1_0_0_1_n_n.lhsBatch by decide), dif_pos (show (0 : Fin S4000x512.rank) ∈ dot_S4000x512_S512x256_S4000x256_1_0_0_1_n_n.lhsNonContracting by decide)]
  rfl
theorem lhsA_1 (i : S4000x256.Idx) (q : dot_S4000x512_S512x256_S4000x256_1_0_0_1_n_n.contr.Idx) :
    (dot_S4000x512_S512x256_S4000x256_1_0_0_1_n_n.lhsIdx i q 1).val = (q ⟨0, by decide⟩).val :=
  dot_S4000x512_S512x256_S4000x256_1_0_0_1_n_n.lhsIdx_val_of_single rfl i q
theorem rhsA_0 (i : S4000x256.Idx) (q : dot_S4000x512_S512x256_S4000x256_1_0_0_1_n_n.contr.Idx) :
    (dot_S4000x512_S512x256_S4000x256_1_0_0_1_n_n.rhsIdx i q 0).val = (q ⟨0, by decide⟩).val :=
  dot_S4000x512_S512x256_S4000x256_1_0_0_1_n_n.rhsIdx_val_of_single rfl i q
theorem rhsA_1 (i : S4000x256.Idx) (q : dot_S4000x512_S512x256_S4000x256_1_0_0_1_n_n.contr.Idx) :
    (dot_S4000x512_S512x256_S4000x256_1_0_0_1_n_n.rhsIdx i q 1).val = (i 1).val := by
  unfold DotDims.rhsIdx
  rw [dif_neg (show ¬(1 : Fin S512x256.rank) ∈ dot_S4000x512_S512x256_S4000x256_1_0_0_1_n_n.rhsBatch by decide), dif_pos (show (1 : Fin S512x256.rank) ∈ dot_S4000x512_S512x256_S4000x256_1_0_0_1_n_n.rhsNonContracting by decide)]
  rfl

theorem lhsB_0 (i : S4000x32.Idx) (q : dot_S4000x256_S256x32_S4000x32_1_0_0_1_n_n.contr.Idx) :
    (dot_S4000x256_S256x32_S4000x32_1_0_0_1_n_n.lhsIdx i q 0).val = (i 0).val := by
  unfold DotDims.lhsIdx
  rw [dif_neg (show ¬(0 : Fin S4000x256.rank) ∈ dot_S4000x256_S256x32_S4000x32_1_0_0_1_n_n.lhsBatch by decide), dif_pos (show (0 : Fin S4000x256.rank) ∈ dot_S4000x256_S256x32_S4000x32_1_0_0_1_n_n.lhsNonContracting by decide)]
  rfl
theorem lhsB_1 (i : S4000x32.Idx) (q : dot_S4000x256_S256x32_S4000x32_1_0_0_1_n_n.contr.Idx) :
    (dot_S4000x256_S256x32_S4000x32_1_0_0_1_n_n.lhsIdx i q 1).val = (q ⟨0, by decide⟩).val :=
  dot_S4000x256_S256x32_S4000x32_1_0_0_1_n_n.lhsIdx_val_of_single rfl i q
theorem rhsB_0 (i : S4000x32.Idx) (q : dot_S4000x256_S256x32_S4000x32_1_0_0_1_n_n.contr.Idx) :
    (dot_S4000x256_S256x32_S4000x32_1_0_0_1_n_n.rhsIdx i q 0).val = (q ⟨0, by decide⟩).val :=
  dot_S4000x256_S256x32_S4000x32_1_0_0_1_n_n.rhsIdx_val_of_single rfl i q
theorem rhsB_1 (i : S4000x32.Idx) (q : dot_S4000x256_S256x32_S4000x32_1_0_0_1_n_n.contr.Idx) :
    (dot_S4000x256_S256x32_S4000x32_1_0_0_1_n_n.rhsIdx i q 1).val = (i 1).val := by
  unfold DotDims.rhsIdx
  rw [dif_neg (show ¬(1 : Fin S256x32.rank) ∈ dot_S4000x256_S256x32_S4000x32_1_0_0_1_n_n.rhsBatch by decide), dif_pos (show (1 : Fin S256x32.rank) ∈ dot_S4000x256_S256x32_S4000x32_1_0_0_1_n_n.rhsNonContracting by decide)]
  rfl

/-! ### Each product at an entry -/

/-- The first product, rows of the block against the columns of the first weight matrix: entry (p, c) is Σ l, a[p,l] · b[l,c]. -/
theorem matmulA_apply (a : FVec Ideal S4000x512 .bf16) (b : FVec Ideal S512x256 .bf16) (p : Fin 4000) (c : Fin 256) :
    matmul dot_S4000x512_S512x256_S4000x256_1_0_0_1_n_n none a b (constant S4000x256 .f32 0x00000000#32) (ix2 p c)
      = ∑ l : Fin 512, a (ix2 p l) * b (ix2 l c) := by
  simp only [matmul]
  rw [Ideal.matmul_constant_zero_apply, ← Equiv.sum_comp (contrEquiv1 dot_S4000x512_S512x256_S4000x256_1_0_0_1_n_n 512 rfl rfl).symm]
  refine Finset.sum_congr rfl fun l _ => ?_
  have hl := contrEquiv1_symm_val dot_S4000x512_S512x256_S4000x256_1_0_0_1_n_n 512 rfl rfl l
  have el : dot_S4000x512_S512x256_S4000x256_1_0_0_1_n_n.lhsIdx (ix2 p c) ((contrEquiv1 dot_S4000x512_S512x256_S4000x256_1_0_0_1_n_n 512 rfl rfl).symm l) = ix2 p l := funext fun a => Fin.ext (by
    match a with
    | ⟨0, _⟩ => exact lhsA_0 _ _
    | ⟨1, _⟩ => exact (lhsA_1 _ _).trans hl)
  have er : dot_S4000x512_S512x256_S4000x256_1_0_0_1_n_n.rhsIdx (ix2 p c) ((contrEquiv1 dot_S4000x512_S512x256_S4000x256_1_0_0_1_n_n 512 rfl rfl).symm l) = ix2 l c := funext fun a => Fin.ext (by
    match a with
    | ⟨0, _⟩ => exact (rhsA_0 _ _).trans hl
    | ⟨1, _⟩ => exact rhsA_1 _ _)
  rw [el, er]

/-- The second product, hidden rows against the columns of the second weight matrix: entry (p, c) is Σ l, a[p,l] · b[l,c]. -/
theorem matmulB_apply (a : FVec Ideal S4000x256 .bf16) (b : FVec Ideal S256x32 .bf16) (p : Fin 4000) (c : Fin 32) :
    matmul dot_S4000x256_S256x32_S4000x32_1_0_0_1_n_n none a b (constant S4000x32 .f32 0x00000000#32) (ix2 p c)
      = ∑ l : Fin 256, a (ix2 p l) * b (ix2 l c) := by
  simp only [matmul]
  rw [Ideal.matmul_constant_zero_apply, ← Equiv.sum_comp (contrEquiv1 dot_S4000x256_S256x32_S4000x32_1_0_0_1_n_n 256 rfl rfl).symm]
  refine Finset.sum_congr rfl fun l _ => ?_
  have hl := contrEquiv1_symm_val dot_S4000x256_S256x32_S4000x32_1_0_0_1_n_n 256 rfl rfl l
  have el : dot_S4000x256_S256x32_S4000x32_1_0_0_1_n_n.lhsIdx (ix2 p c) ((contrEquiv1 dot_S4000x256_S256x32_S4000x32_1_0_0_1_n_n 256 rfl rfl).symm l) = ix2 p l := funext fun a => Fin.ext (by
    match a with
    | ⟨0, _⟩ => exact lhsB_0 _ _
    | ⟨1, _⟩ => exact (lhsB_1 _ _).trans hl)
  have er : dot_S4000x256_S256x32_S4000x32_1_0_0_1_n_n.rhsIdx (ix2 p c) ((contrEquiv1 dot_S4000x256_S256x32_S4000x32_1_0_0_1_n_n 256 rfl rfl).symm l) = ix2 l c := funext fun a => Fin.ext (by
    match a with
    | ⟨0, _⟩ => exact (rhsB_0 _ _).trans hl
    | ⟨1, _⟩ => exact rhsB_1 _ _)
  rw [el, er]

/-! ### The stored value -/

/-- The body's one store, as a function of the five loaded blocks, is the perceptron of the 4000-row block. -/
theorem pay_eq_mlp (x0 : Vec Ideal S4000x512 .f32) (x1 : Vec Ideal S512x256 .f32) (x2 : Vec Ideal S256 .f32)
    (x3 : Vec Ideal S256x32 .f32) (x4 : Vec Ideal S32 .f32) :
    k0_pay1 x0 x1 x2 x3 x4 = mlp (n := 4000) x0 x1 x2 x3 x4 := by
  funext j
  obtain ⟨p, q, rfl⟩ : ∃ (p : Fin 4000) (q : Fin 32), j = ix2 p q := ⟨j 0, j 1, eq_ix2 j⟩
  show _ = mlpAt x0 x1 x2 x3 x4 p q
  unfold mlpAt hiddenAt k0_pay1
  simp only [addf_apply, matmulB_apply, truncf_apply, maximumf_apply, matmulA_apply, broadcast_apply,
    broadcastTo_1b_ab_apply, shapeCast_a_1a_apply, Ideal.ofBits_def, Ideal.ofBits_zero_f32]

end Cert.KernelIdeal.BodyValue

end
-- ==== Proof.LibRunBoth.lean ====
/-
  Two facts about the final states of one program from one initial state hold together: if every weakly fair
  execution ends in a state satisfying `Q₁`, and every one ends in a state satisfying `Q₂`, then every one ends in
  a state satisfying both. (Termination and progress are properties of the executions, not of the postcondition.)
  General: it mentions no program.
-/
import Idealize.ShloMosaic.Machine.Run

namespace Cert.Lib

open Idealize.ShloMosaic Idealize.SL.Sem

/-- The conjunction of two postconditions of one run. -/
theorem θ_run_both {nD : Nat} {τ : Topo} {sig : RefSig} {Val : EltTy → Type} {Λ : Labels}
    (defs : Defs nD τ sig Val Λ) (p : (c : Thread nD τ) → Prog (TpuEff nD τ sig Val Λ c.2) PUnit)
    (s : MemSt nD τ sig Val) (Q₁ Q₂ : PUnit × MemSt nD τ sig Val → Prop)
    (h₁ : θ_run defs p s Q₁) (h₂ : θ_run defs p s Q₂) : θ_run defs p s (fun r => Q₁ r ∧ Q₂ r) :=
  ⟨fun t ht hf => ⟨MeshRun.post h₁ t ht hf, MeshRun.post h₂ t ht hf⟩, MeshRun.progress h₁, MeshRun.fair h₁⟩

end Cert.Lib
-- ==== Proof.KernelValue.lean ====
/-
  The kernel's program, read as values at the extended reals.

  The region walks the feature matrix in 25 blocks of 4000 rows. At block `t` it is handed rows
  4000·t … 4000·t + 3999 of the features and the whole of both weight matrices and both biases, and writes back
  rows 4000·t … 4000·t + 3999 of its result: the perceptron of that block of rows (the body's stored value), which is
  the same rows of the perceptron of the whole matrix, because an entry depends on its own row only. The 25 blocks
  tile the 100000 × 32 result, so after the region the result array IS the perceptron of the feature matrix
  (`dense`). The operations after the region are the sparse product of that array with the edge list (`tail_eq`),
  and the run's final state has the result there and every argument as it was (`run`).
-/
import proofs.«122920_j10557029614175_1_alg».proof.Proof.Gen.KernelIdeal.Frame
import proofs.«122920_j10557029614175_1_alg».proof.Proof.Gen.ReferenceIdeal.Read
import proofs.«122920_j10557029614175_1_alg».proof.Proof.KernelPay
import proofs.«122920_j10557029614175_1_alg».proof.Proof.RefMlp
import Idealize.ShloMosaic.Lib.Pipeline.Value
import Idealize.ShloMosaic.Lib.StableHlo.Run
import proofs.«122920_j10557029614175_1_alg».proof.Proof.LibRunBoth

set_option maxRecDepth 16384

noncomputable section

open scoped BigOperators

namespace Cert.KernelIdeal.RegionValue

open Cert.KernelIdeal Cert.KernelIdeal.Gen Cert.KernelIdeal.BodyValue Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ### The index maps, decided once over the 25 points -/

theorem hz2 : (![0, 0] : Fin 2 → Nat) = fun _ => 0 := funext fun a => by fin_cases a <;> rfl
theorem hz1 : (![0] : Fin 1 → Nat) = fun _ => 0 := funext fun a => by fin_cases a <;> rfl

/-- The feature window and the result window sit at the same row block; every other coordinate of every window
    is block 0 (the weights and biases are whole, the 512 and 32 columns are one block wide). -/
theorem idx_facts : ∀ t : Fin cfg0.N, win0_0.index t (0 : Fin 2) = win0_5.index t (0 : Fin 2)
    ∧ win0_0.index t (1 : Fin 2) = 0
    ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-- Every one of the 25 row blocks of the result is some point's. -/
theorem idx_onto : ∀ b : Fin 25, ∃ t : Fin cfg0.N, win0_5.index t = ![b.val, 0] :=
  (by decide +kernel : ∀ b : Fin 25, ∃ t : Fin grid0.N, win0_5.index t = ![b.val, 0])

/-! ### The four whole-array windows hand the body the arrays themselves -/

theorem w1_blk (c : Dev nD) (t : Fin cfg0.N) : (iblk m c 1 t : S512x256.Idx → EReal) = V m c main_arg2 := by
  obtain ⟨e0, e1, e2, e3, e4, e5, e6, e7, e8⟩ := idx_facts t
  funext y
  show V m c main_arg2 (((cfg0.win 1).blk t).view.emb y) = V m c main_arg2 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 256 + 1 * (y 1).val = (y 1).val; omega

theorem b1_blk (c : Dev nD) (t : Fin cfg0.N) : (iblk m c 2 t : S256.Idx → EReal) = V m c main_arg3 := by
  obtain ⟨e0, e1, e2, e3, e4, e5, e6, e7, e8⟩ := idx_facts t
  funext y
  show V m c main_arg3 (((cfg0.win 2).blk t).view.emb y) = V m c main_arg3 y
  refine congrArg _ (funext fun a => Fin.ext ?_)
  match a with
  | ⟨0, _⟩ => show win0_2.index t (0 : Fin 1) * 256 + 1 * (y 0).val = (y 0).val; omega

theorem w2_blk (c : Dev nD) (t : Fin cfg0.N) : (iblk m c 3 t : S256x32.Idx → EReal) = V m c main_arg4 := by
  obtain ⟨e0, e1, e2, e3, e4, e5, e6, e7, e8⟩ := idx_facts t
  funext y
  show V m c main_arg4 (((cfg0.win 3).blk t).view.emb y) = V m c main_arg4 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 32 + 1 * (y 1).val = (y 1).val; omega

theorem b2_blk (c : Dev nD) (t : Fin cfg0.N) : (iblk m c 4 t : S32.Idx → EReal) = V m c main_arg5 := by
  obtain ⟨e0, e1, e2, e3, e4, e5, e6, e7, e8⟩ := idx_facts t
  funext y
  show V m c main_arg5 (((cfg0.win 4).blk t).view.emb y) = V m c main_arg5 y
  refine congrArg _ (funext fun a => Fin.ext ?_)
  match a with
  | ⟨0, _⟩ => show win0_4.index t (0 : Fin 1) * 32 + 1 * (y 0).val = (y 0).val; omega

/-! ### What a point writes back -/

/-- Point `t` writes back block `t` of the perceptron of the whole feature matrix: the body's value is the
    perceptron of the block of rows it was handed, and row `p` of that block is row 4000·t + p of the matrix. -/
theorem flushed_eq (c : Dev nD) (t : Fin cfg0.N) :
    (dats m 0 c).flushed 5 t = ((cfg0.win 5).blk t).view.read (Elt Ideal)
      (mlp (n := 100000) (V m c main_arg0) (V m c main_arg2) (V m c main_arg3) (V m c main_arg4) (V m c main_arg5)) := by
  show (cfg0.win 5).cut (grid0.coords t) ((dats m 0 c).after 5 t) = _
  rw [after0_5]
  unfold out0_5
  rw [View.canon_unit_zero hz2]
  simp only [View.ld_unit_zero (S := S4000x512) hz2, View.ld_unit_zero (S := S512x256) hz2, View.ld_unit_zero (S := S256) hz1,
    View.ld_unit_zero (S := S256x32) hz2, View.ld_unit_zero (S := S32) hz1]
  rw [pay_eq_mlp]
  obtain ⟨e0, e1, e2, e3, e4, e5, e6, e7, e8⟩ := idx_facts t
  funext j
  show mlp (n := 4000) (iblk m c 0 t) (iblk m c 1 t) (iblk m c 2 t) (iblk m c 3 t) (iblk m c 4 t) j
    = mlp (n := 100000) (V m c main_arg0) (V m c main_arg2) (V m c main_arg3) (V m c main_arg4) (V m c main_arg5) (((cfg0.win 5).blk t).view.emb j)
  rw [w1_blk, b1_blk, w2_blk, b2_blk]
  unfold mlp
  refine mlpAt_rows (n := 4000) (n' := 100000) (iblk m c 0 t) (V m c main_arg0) (V m c main_arg2) (V m c main_arg3) (V m c main_arg4) (V m c main_arg5)
    (j 0) ((((cfg0.win 5).blk t).view.emb j) 0) (j 1) ((((cfg0.win 5).blk t).view.emb j) 1) ?_ ?_
  · exact Fin.ext (by show (j 1).val = win0_5.index t (1 : Fin 2) * 32 + 1 * (j 1).val; omega)
  · intro l
    show V m c main_arg0 (((cfg0.win 0).blk t).view.emb (ix2 (j 0) l)) = V m c main_arg0 (ix2 ((((cfg0.win 5).blk t).view.emb j) 0) l)
    refine congrArg _ (funext fun a => Fin.ext ?_)
    match a with
    | ⟨0, _⟩ => show win0_0.index t (0 : Fin 2) * 4000 + 1 * (j 0).val = win0_5.index t (0 : Fin 2) * 4000 + 1 * (j 0).val; omega
    | ⟨1, _⟩ => show win0_0.index t (1 : Fin 2) * 512 + 1 * l.val = l.val; omega

/-! ### The blocks tile the result -/

/-- An index of the result is in point `t`'s block iff each coordinate is in the block's range on its axis. -/
theorem mem_blk (t : Fin cfg0.N) (i : S100000x32.Idx) :
    i ∈ ((cfg0.win 5).blk t).view.set ↔ ∀ a : Fin 2, win0_5.index t a * S4000x32.size a ≤ (i a).val ∧ (i a).val < win0_5.index t a * S4000x32.size a + S4000x32.size a := by
  show i ∈ ((View.whole main_v0).slice (win0_5.rect t)).set ↔ _
  rw [View.set_slice_whole, Rect.mem_set_unit]
  exact Iff.rfl

/-- Row `r` of the result is in the block of the point whose row block is `r / 4000`. -/
theorem cover (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  obtain ⟨t, ht⟩ := idx_onto ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 32 ≤ (i 1).val ∧ (i 1).val < win0_5.index t (1 : Fin 2) * 32 + 32; omega

/-- THE RESULT ARRAY after the region: the perceptron of the feature matrix. -/
theorem dense (c : Dev nD) : (dats m 0 c).arrAt 5 cfg0.N = (mlp (n := 100000) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) :=
  (dats m 0 c).arrAt_eq_of_cover 5 _ (fun t _ => flushed_eq m c t) cover

/-! ### The operations after the region -/

/-- The kernel program's own spelling of the sparse product is the reference's: the same operations on the same
    literal words, the two programs' dimension records equal field by field. -/
theorem tail_spelling (X : FVec Ideal S100000x32 .f32) (a : FVec Ideal S1600000 .f32) (row col : IVec S1600000 32) :
    Host.scatterAdd (F := Ideal) scatter_S100000x32_S1600000x1_S1600000x32_1_0_0_1
      (broadcastInDim S100000x32 ![] bcast_S_S100000x32 (constant (F := Ideal) S_ .f32 0x00000000#32))
      (broadcastInDim S1600000x1 ![0] bcast_S1600000_S1600000x1_0 row)
      (mulf (F := Ideal) (broadcastInDim S1600000x32 ![0, 1] bcast_S1600000x1_S1600000x32_0_1 (broadcastInDim S1600000x1 ![0] bcast_S1600000_S1600000x1_0 a))
        (Host.gather gather_S100000x32_S1600000x1_S1600000x32_1_0_n_n_0_1_132 X
          (broadcastInDim S1600000x1 ![0] bcast_S1600000_S1600000x1_0
            (select (cmpi .slt col (broadcastInDim S1600000 ![] bcast_S_S1600000 (constantI S_ 32 0#32)))
              (addi col (broadcastInDim S1600000 ![] bcast_S_S1600000 (constantI S_ 32 100000#32))) col))))
      = Cert.ReferenceIdeal.RefValue.spmm X a row col := rfl

/-- The program's result buffer after the operations that follow the region: the sparse product of the region's
    result array — the perceptron of the features — with the edge list as launched. -/
theorem tail_eq (c : Dev nD) : Pipeline.afterTail₀ cfgs (dats m) 0 (V0 m) [hostOps1] c main_v13
    = Cert.ReferenceIdeal.RefValue.spmm (mlp (n := 100000) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) := by
  unfold Pipeline.afterTail₀
  show StableHlo.after hostOps1 _ (Proc.devRef .tc main_v13) = _
  after_results
  have hX : Pipeline.withArrays (cfgs 0).spec c (V0 m c) (fun w => (dats m 0 c).arrAt w (cfgs 0).N) (Proc.devRef .tc main_v0) = (mlp (n := 100000) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) :=
    (Pipeline.withArrays_arr spec0 launch0.win.arr_inj c (V0 m c) (fun w => (dats m 0 c).arrAt w (cfgs 0).N) 5).trans (dense m c)
  have h1 : Pipeline.withArrays (cfgs 0).spec c (V0 m c) (fun w => (dats m 0 c).arrAt w (cfgs 0).N) (Proc.devRef .tc main_arg1) = (m ((c.tc : Thread nD τ).loc main_arg1)) :=
    (Pipeline.withArrays_of_ne _ c (V0 m c) _ main_arg1 (by exact (by decide : ∀ w, Pipeline.arrRef spec0 w ≠ main_arg1))).trans (V_main_arg1 m c)
  have h6 : Pipeline.withArrays (cfgs 0).spec c (V0 m c) (fun w => (dats m 0 c).arrAt w (cfgs 0).N) (Proc.devRef .tc main_arg6) = (m ((c.tc : Thread nD τ).loc main_arg6)) :=
    (Pipeline.withArrays_of_ne _ c (V0 m c) _ main_arg6 (by exact (by decide : ∀ w, Pipeline.arrRef spec0 w ≠ main_arg6))).trans (V_main_arg6 m c)
  have h7 : Pipeline.withArrays (cfgs 0).spec c (V0 m c) (fun w => (dats m 0 c).arrAt w (cfgs 0).N) (Proc.devRef .tc main_arg7) = (m ((c.tc : Thread nD τ).loc main_arg7)) :=
    (Pipeline.withArrays_of_ne _ c (V0 m c) _ main_arg7 (by exact (by decide : ∀ w, Pipeline.arrRef spec0 w ≠ main_arg7))).trans (V_main_arg7 m c)
  rw [hX, h1, h6, h7]
  exact tail_spelling _ _ _ _

/-! ### The run -/

/-- Every weakly fair execution of the kernel's program ends with the result buffer at the sparse product of the
    perceptron of the features, and every argument unchanged. -/
theorem run : θ_run defs (onTc (τ := τ) (main (F := Ideal))) ⟨m, fun _ => 0, ρ⟩ fun r => ∀ c : Dev nD,
      r.2.mem ((c.tc : Thread nD τ).loc main_v13)
        = Cert.ReferenceIdeal.RefValue.spmm (mlp (n := 100000) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  by
  have hres : θ_run defs (onTc (τ := τ) (main (F := Ideal))) ⟨m, fun _ => 0, ρ⟩ fun r => ∀ c : Dev nD,
      r.2.mem ((c.tc : Thread nD τ).loc main_v13)
        = Cert.ReferenceIdeal.RefValue.spmm (mlp (n := 100000) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) :=
    (θ_run defs _ _).mono (fun r h c =>
      ((h c).2 main_v13 (Pipeline.mem_restRefs_of main_v13 (by decide) (by decide))).trans (tail_eq m c)) (run_main m ρ)
  have hboth := Cert.Lib.θ_run_both defs _ _ _ _ hres (frame m ρ)
  refine (θ_run defs _ _).mono ?_ hboth
  exact fun r h c => ⟨h.1 c, h.2 c⟩

end Cert.KernelIdeal.RegionValue

end
-- ==== Proof.lean ====
/-
  A two-layer perceptron followed by a sparse matrix product, against its jnp reference, over the extended reals.

  Both programs compute, from a feature matrix `x` (100000 × 512), weights `w1` (512 × 256), `w2` (256 × 32),
  biases `b1`, `b2` and an edge list (weights `a`, rows, columns),

      X[i,j] = (Σ k, max (Σ l, x[i,l] · w1[l,k] + b1[k]) 0 · w2[k,j]) + b2[j]          (the perceptron)
      out    = spmm X a rows cols                                                     (gather, scale, scatter-add).

  The kernel computes `X` in a pallas_call over 25 blocks of 4000 rows, with its operands cast to bf16 before each
  product — the identity on extended reals — and each product accumulated into zero; the reference computes `X`
  with two whole `dot_general`s. An entry of `X` depends on one row of `x` only, so the 25 blocks of the kernel's
  result are the blocks of the one perceptron (Proof/Mlp.lean, Proof/KernelPay.lean, Proof/KernelValue.lean), and
  the reference's stages read index by index are the same sums (Proof/RefMlp.lean). From `X` on, both programs apply
  the same operations with the same literal words; that chain is one function `spmm`, never opened. No law of the
  extended reals beyond reading the operations is used, so finiteness of the inputs is not needed for the value
  claim. The ideal pass rewrote nothing, so the kernel's idealization is its own text and `preserves` is trivial.
-/
import proofs.«122920_j10557029614175_1_alg».proof.Defs
import proofs.«122920_j10557029614175_1_alg».proof.Proof.Gen.Kernel
import proofs.«122920_j10557029614175_1_alg».proof.Proof.Gen.Kernel.Skeleton
import proofs.«122920_j10557029614175_1_alg».proof.Proof.Gen.Kernel.Launch
import proofs.«122920_j10557029614175_1_alg».proof.Proof.Gen.Kernel.Points
import proofs.«122920_j10557029614175_1_alg».proof.Proof.Gen.Kernel.Frame
import proofs.«122920_j10557029614175_1_alg».proof.Proof.Gen.KernelIdeal
import proofs.«122920_j10557029614175_1_alg».proof.Proof.Gen.KernelIdeal.Skeleton
import proofs.«122920_j10557029614175_1_alg».proof.Proof.Gen.KernelIdeal.Launch
import proofs.«122920_j10557029614175_1_alg».proof.Proof.Gen.KernelIdeal.Points
import proofs.«122920_j10557029614175_1_alg».proof.Proof.Gen.KernelIdeal.Frame
import proofs.«122920_j10557029614175_1_alg».proof.Proof.Gen.ReferenceIdeal
import proofs.«122920_j10557029614175_1_alg».proof.Proof.Gen.Pre_finite_inputs
import proofs.«122920_j10557029614175_1_alg».proof.Proof.Gen.ReferenceIdeal.Run
import proofs.«122920_j10557029614175_1_alg».proof.Proof.Gen.ReferenceIdeal.Read
import proofs.«122920_j10557029614175_1_alg».proof.Proof.RefMlp
import proofs.«122920_j10557029614175_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel's program terminates without a fault and leaves its arguments as they were. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, both programs end with the sparse product of the perceptron of the features. -/
theorem algebraic : Cert.algebraic_KernelIdeal_ReferenceIdeal := by
  intro m ρ m' ρ' _ hagree
  refine ⟨_, Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v21_eq, Cert.ReferenceIdeal.RefValue.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
